-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x80x1024 : Shape := ⟨4, ![16, 64, 80, 1024]⟩
abbrev S16 : Shape := ⟨1, ![16]⟩
abbrev S_ : Shape := ⟨0, ![]⟩

class Facts : Prop where
  bcast_S_S16x64x80x1024 : S_.BroadcastsInDim S16x64x80x1024 (![] : Fin 0 → Fin S16x64x80x1024.rank)
  reducesTo_S16x64x80x1024_S_d0_1_2_3 : S16x64x80x1024.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x64x80x1024 .f32) (main_arg1 : FVec F S16 .f32) : IVec S_ 1 :=
  let main_v0 : FVec F S16x64x80x1024 .f32 := Host.absf main_arg0
  let main_cst : FVec F S_ .f32 := constant S_ .f32 0x7F800000#32
  let main_v1 : FVec F S16x64x80x1024 .f32 := broadcastInDim S16x64x80x1024 ![] bcast_S_S16x64x80x1024 main_cst
  let main_v2 : IVec S16x64x80x1024 1 := cmpf .olt main_v0 main_v1
  let main_c : IVec S_ 1 := constantI S_ 1 1#1
  let main_v3 : IVec S_ 1 := (fun x v => Host.reduce IntOp.andi x v reducesTo_S16x64x80x1024_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16x64x80x1024 : Shape := ⟨4, ![16, 64, 80, 1024]⟩
abbrev S16 : Shape := ⟨1, ![16]⟩
abbrev S_ : Shape := ⟨0, ![]⟩
abbrev S16x5120x1024 : Shape := ⟨3, ![16, 5120, 1024]⟩
abbrev S1x640x1024 : Shape := ⟨3, ![1, 640, 1024]⟩
abbrev S1 : Shape := ⟨1, ![1]⟩
abbrev S640x1024 : Shape := ⟨2, ![640, 1024]⟩

abbrev nBuf : Space → Nat
  | .hbm => 8
  | .vmem => 4
  | .smem => 1
  | _ => 0

abbrev bufTy : (tb : Table) → Fin (tcTables nBuf tb) → BufTy
  | .hbm, ⟨0, _⟩ => ⟨S16x64x80x1024, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S16x5120x1024, .f32⟩
  | .hbm, ⟨6, _⟩ => ⟨S16x5120x1024, .f32⟩
  | .hbm, ⟨7, _⟩ => ⟨S16x64x80x1024, .f32⟩
  | .local _ .vmem, ⟨0, _⟩ => ⟨S1x640x1024, .f32⟩
  | .local _ .vmem, ⟨1, _⟩ => ⟨S1x640x1024, .f32⟩
  | .local _ .vmem, ⟨2, _⟩ => ⟨S1x640x1024, .f32⟩
  | .local _ .vmem, ⟨3, _⟩ => ⟨S1x640x1024, .f32⟩
  | .local _ .smem, ⟨0, _⟩ => ⟨S16, .i32⟩
  | _, _ => ⟨S16x64x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S16 : S_.BroadcastsInDim S16 (![] : Fin 0 → Fin S16.rank)
  shapeCasts_S16x64x80x1024_S16x5120x1024 : S16x64x80x1024.ShapeCasts S16x5120x1024
  numel1_S1 : S1.numel = 1
  iota_S640x1024_d1_w32 : S640x1024.Iotas .tc 32 [1]
  inb_S1x640x1024_S1x640x1024_0_0_0 : ∀ a, (![0, 0, 0] : Fin 3 → Nat) a + S1x640x1024.size a ≤ S1x640x1024.size a
  h_S1x640x1024 : 0 < S1x640x1024.numel
  shapeCasts_S1x640x1024_S640x1024 : S1x640x1024.ShapeCasts S640x1024
  shapeCasts_S640x1024_S1x640x1024 : S640x1024.ShapeCasts S1x640x1024
  shapeCasts_S16x5120x1024_S16x64x80x1024 : S16x5120x1024.ShapeCasts S16x64x80x1024
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x640x1024.size a ≤ S16x5120x1024.size a
  hwx0_0 : ∀ i : grid0.Coords, EltTy.bits .f32 = 32 ∨ (Rect.block (s := S16x5120x1024) S1x640x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x640x1024.size a ≤ S16x5120x1024.size a
  hwx0_1 : ∀ i : grid0.Coords, EltTy.bits .f32 = 32 ∨ (Rect.block (s := S16x5120x1024) S1x640x1024.size (cc0_transform_1 i) (hinb0_1 i)).WholeWords (EltTy.packing .f32)

variable [Facts₀]

abbrev spec0_0 : Pipeline.WinSpec sig grid0.rank :=
  Pipeline.WinSpec.ofSpec (Memref.whole main_v3) S1x640x1024.size reads0_0 false false 2 stage0_0 sem0_0 nbuf0_0 hstage0_0

abbrev spec0_1 : Pipeline.WinSpec sig grid0.rank :=
  Pipeline.WinSpec.ofSpec (Memref.whole main_v4) S1x640x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x64x80x1024 : Shape := ⟨4, ![16, 64, 80, 1024]⟩
abbrev S16 : Shape := ⟨1, ![16]⟩
abbrev S_ : Shape := ⟨0, ![]⟩
abbrev S1024 : Shape := ⟨1, ![1024]⟩
abbrev S1x1x1x1024 : Shape := ⟨4, ![1, 1, 1, 1024]⟩
abbrev S16x1x1x1 : Shape := ⟨4, ![16, 1, 1, 1]⟩
abbrev S16x1x1x1024 : Shape := ⟨4, ![16, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x64x80x1024, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S16, .i32⟩
  | .hbm, ⟨6, _⟩ => ⟨S1024, .i32⟩
  | .hbm, ⟨7, _⟩ => ⟨S1x1x1x1024, .i32⟩
  | .hbm, ⟨8, _⟩ => ⟨S16x1x1x1, .i32⟩
  | .hbm, ⟨9, _⟩ => ⟨S16x1x1x1024, .i32⟩
  | .hbm, ⟨10, _⟩ => ⟨S16x1x1x1024, .i32⟩
  | .hbm, ⟨11, _⟩ => ⟨S16x1x1x1024, .i1⟩
  | .hbm, ⟨12, _⟩ => ⟨S_, .f32⟩
  | .hbm, ⟨13, _⟩ => ⟨S16x64x80x1024, .i1⟩
  | .hbm, ⟨14, _⟩ => ⟨S16x64x80x1024, .f32⟩
  | .hbm, ⟨15, _⟩ => ⟨S16x64x80x1024, .f32⟩
  | _, _ => ⟨S16x64x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S1024_S1x1x1x1024_3 : S1024.BroadcastsInDim S1x1x1x1024 (![3] : Fin 1 → Fin S1x1x1x1024.rank)
  bcast_S16_S16x1x1x1_0 : S16.BroadcastsInDim S16x1x1x1 (![0] : Fin 1 → Fin S16x1x1x1.rank)
  bcast_S1x1x1x1024_S16x1x1x1024_0_1_2_3 : S1x1x1x1024.BroadcastsInDim S16x1x1x1024 (![0, 1, 2, 3] : Fin 4 → Fin S16x1x1x1024.rank)
  bcast_S16x1x1x1_S16x1x1x1024_0_1_2_3 : S16x1x1x1.BroadcastsInDim S16x1x1x1024 (![0, 1, 2, 3] : Fin 4 → Fin S16x1x1x1024.rank)
  bcast_S16x1x1x1024_S16x64x80x1024_0_1_2_3 : S16x1x1x1024.BroadcastsInDim S16x64x80x1024 (![0, 1, 2, 3] : Fin 4 → Fin S16x64x80x1024.rank)
  bcast_S_S16x64x80x1024 : S_.BroadcastsInDim S16x64x80x1024 (![] : Fin 0 → Fin S16x64x80x1024.rank)

variable [Facts₀]

class Facts : Prop extends Facts₀ where

variable [Facts]
-- ==== Proof.Mask.lean ====
/-
  Length masking along the last axis, read index by index.

  For each sample `b` a signed 32-bit length `len b` is given; position `w` of sample `b` keeps its entry when
  `w < len b` (signed) and is replaced by the fill value otherwise.  The same function is stated at two layouts of
  one array: `[16, 5120, 1024]` (channel and height merged into one row axis) and `[16, 64, 80, 1024]`.  Merging
  the two middle axes keeps an element's first coordinate and its last coordinate, so masking in the merged layout
  and reading the result back in the four-axis layout is masking in the four-axis layout.
-/
import Idealize.ShloMosaic.PureOps
import Idealize.ShloMosaic.Lib.ValueIdx
import Idealize.ShloMosaic.Lib.Pipeline.Value

namespace Cert.Mask

open Idealize.ShloMosaic Idealize.ShloMosaic.ValueIdx

/-- sample × (channel · height) × position -/
abbrev Rows : Shape := ⟨3, ![16, 5120, 1024]⟩
/-- sample × channel × height × position -/
abbrev Full : Shape := ⟨4, ![16, 64, 80, 1024]⟩
/-- one word per sample -/
abbrev Batch : Shape := ⟨1, ![16]⟩

variable {α : Type}

/-- Each sample's length: its fraction `p b` of the 1024 positions, `1024 · p b`, converted to a signed 32-bit word.
    (The product and the conversion are left as the operations they are: both programs compute this one term.) -/
def lengths {F : FTy → Type} [FloatOps F] (p : FVec F Batch .f32) : IVec Batch 32 :=
  fptosi 32 (mulf (broadcastInDim Batch ![] (by decide) (constant ⟨0, ![]⟩ .f32 0x44800000#32)) p)

/-- The entry at position `w` of sample `b`: the fill value `z` from the sample's length on, the entry itself before. -/
def keep (len : IVec Batch 32) (z : α) (b : Fin 16) (w : Fin 1024) (v : α) : α :=
  Scalar.select (IntOp.cmpi .sge (BitVec.ofNat 32 w.val) (len (ix1 b))) z v

/-- The masked array in the merged layout. -/
def rows (len : IVec Batch 32) (z : α) (X : Rows.Idx → α) : Rows.Idx → α :=
  fun j => keep len z (j 0) (j 2) (X j)

/-- The masked array in the four-axis layout. -/
def full (len : IVec Batch 32) (z : α) (x : Full.Idx → α) : Full.Idx → α :=
  fun i => keep len z (i 0) (i 3) (x i)

/-- The element of the merged layout at the row-major position of `i` has `i`'s sample and `i`'s position:
    `((b·64 + c)·80 + h)·1024 + w = (b·5120 + r)·1024 + w'` with `w, w' < 1024` and `r < 5120` forces `w' = w`, `b' = b`. -/
theorem merged_coords (h : Rows.ShapeCasts Full) (i : Full.Idx) :
    ((Shape.reshapeEquiv h i) 0 : Fin 16) = i 0 ∧ ((Shape.reshapeEquiv h i) 2 : Fin 1024) = i 3 := by
  have e := Shape.rowMajor_reshapeEquiv h i
  rw [Shape.rowMajor_val_three, Shape.rowMajor_val_four] at e
  generalize Shape.reshapeEquiv h i = j at e
  have e' : ((j 0).val * 5120 + (j 1).val) * 1024 + (j 2).val
      = (((i 0).val * 64 + (i 1).val) * 80 + (i 2).val) * 1024 + (i 3).val := e
  have hj0 : (j 0).val < 16 := (j 0).isLt
  have hj1 : (j 1).val < 5120 := (j 1).isLt
  have hj2 : (j 2).val < 1024 := (j 2).isLt
  have hi0 : (i 0).val < 16 := (i 0).isLt
  have hi1 : (i 1).val < 64 := (i 1).isLt
  have hi2 : (i 2).val < 80 := (i 2).isLt
  have hi3 : (i 3).val < 1024 := (i 3).isLt
  exact ⟨Fin.ext (by show (j 0).val = (i 0).val; omega), Fin.ext (by show (j 2).val = (i 3).val; omega)⟩

/-- Masking the merged layout of `x` and reading the result in the four-axis layout is masking `x`. -/
theorem full_of_rows (len : IVec Batch 32) (z : α) (x : Full.Idx → α)
    (h : Full.ShapeCasts Rows) (h' : Rows.ShapeCasts Full) :
    shapeCast Full (rows len z (shapeCast Rows x h)) h' = full len z x := by
  funext i
  obtain ⟨e0, e2⟩ := merged_coords h' i
  show keep len z ((Shape.reshapeEquiv h' i) 0) ((Shape.reshapeEquiv h' i) 2)
      (x (Shape.reshapeEquiv h (Shape.reshapeEquiv h' i))) = keep len z (i 0) (i 3) (x i)
  rw [e0, e2, Shape.reshapeEquiv_reshapeEquiv, Shape.reshapeEquiv_self]

end Cert.Mask
-- ==== Proof.KernelMask.lean ====
/-
  The kernel, read as one function of its arguments.

  The grid is 16 × 8: point `(b, q)` handles rows `640·q … 640·q + 639` of sample `b` in the merged layout
  `[16, 5120, 1024]`.  At that point the body loads the sample's length word `len b` from the prefetched table,
  compares the positions `0 … 1023` of the block's last axis with it and stores zero where position ≥ length, the
  input block's entry elsewhere.  So what the point writes back is the block `(b, q)` of `Mask.rows len 0 X`, where
  `X` is the input in the merged layout and `len` the table: the 128 blocks tile the array, hence the array ends as
  `Mask.rows len 0 X`, and the reshape after the call reads it in the four-axis layout, where it is `Mask.full`
  (`Mask.full_of_rows`).  The table is the host's `1024 · percents` converted to signed words (`Mask.lengths`).
-/
import proofs.«110465_j13907104104939_1_alg».proof.Proof.Gen.KernelIdeal.Frame
import proofs.«110465_j13907104104939_1_alg».proof.Proof.Mask
import Idealize.ShloMosaic.Lib.ValueLayout
import Idealize.ShloMosaic.Lib.StableHlo.Run

set_option maxRecDepth 16384

noncomputable section

namespace Cert.KernelIdeal.MaskValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The fill value: the float whose bits are all zero. -/
abbrev zero : F .f32 := FloatOps.ofBits .f32 0x00000000#32

/-! ## One grid point -/

theorem offsets_zero : (![0, 0, 0] : Fin 3 → Nat) = fun _ => 0 := funext fun a => by fin_cases a <;> rfl

/-- What the body leaves in the output's staging buffer at grid coordinates `i`: its one store covers the whole block,
    and the stored value is the body's arithmetic of the length word of sample `i 0` and the input block. -/
theorem stored (c : Dev nD) (i : grid0.Coords) (arg3 : Memref sig .tc .vmem S1x640x1024 .f32) (harg3 : arg3.IsWhole)
    (arg4 : Memref sig .tc .vmem S1x640x1024 .f32) (harg4 : arg4.IsWhole)
    (x0 : Vec F S1x640x1024 .f32) (xt0 : TbBuf0 (F := F) c tbM0_0) :
    out0_A_1 c i arg3 harg3 arg4 harg4 x0 xt0 = k0_pay1 (xt0 (ix1 (i 0))) x0 := by
  unfold out0_A_1
  rw [View.read_writes_eq_canon _ _ _ (cover0_A_1 c i arg3 harg3 arg4 harg4 x0 xt0)]
  unfold kernelRun0_A
  dsimp only
  sl_unfold_words
  rw [View.canon_unit_zero offsets_zero]
  simp only [View.readAt_eq_ld, harg3.read_unread, View.ld_unit_zero (S := S1x640x1024) offsets_zero]
  refine congrArg (fun v => k0_pay1 v x0) ?_
  show xt0 _ = xt0 _
  refine congrArg xt0 (funext fun a => Fin.ext ?_)
  match a with
  | ⟨0, _⟩ =>
    have e : BitVec.toNat (Scalar.indexCast (BitVec.ofNat 32 (i 0).val)) = (i 0).val := congrFun (k0_off1_eq i) 0
    show BitVec.toNat (Scalar.indexCast (BitVec.ofNat 32 (i 0).val)) + 1 * 0 = (i 0).val
    omega

/-- The body's arithmetic at an index of the block: zero from the length on, the loaded entry before. -/
theorem stored_apply (len : BitVec 32) (blk : Vec F S1x640x1024 .f32) (u : Fin 1) (r : Fin 640) (w : Fin 1024) :
    k0_pay1 (F := F) len blk (ix3 u r w)
      = Scalar.select (IntOp.cmpi .sge (BitVec.ofNat 32 w.val) len) zero (blk (ix3 (0 : Fin 1) r w)) := by
  have e : k0_pay1 (F := F) len blk
      = shapeCast S1x640x1024 (select (cmpi .sge (iota .tc S640x1024 32 [1] Gen.iota_S640x1024_d1_w32) (broadcast S640x1024 len))
          (broadcast S640x1024 (zero (F := F))) (shapeCast S640x1024 blk Gen.shapeCasts_S1x640x1024_S640x1024))
          Gen.shapeCasts_S640x1024_S1x640x1024 := rfl
  rw [e, shapeCast_ab_1ab_apply]
  show Scalar.select (IntOp.cmpi .sge (iota .tc S640x1024 32 [1] Gen.iota_S640x1024_d1_w32 (ix2 r w)) len) zero
      (shapeCast S640x1024 blk Gen.shapeCasts_S1x640x1024_S640x1024 (ix2 r w)) = _
  rw [iota_single_apply, shapeCast_1ab_ab_apply]

/-! ## The blocks -/

/-- Both windows' index maps send grid coordinates `(b, q)` to the block `(b, q, 0)`. -/
theorem block_of_point : ∀ i : grid0.Coords, cc0_transform_1 i = ![(i 0).val, (i 1).val, 0] := by decide +kernel

/-- Every block `(b, q)` is some grid point's. -/
theorem point_of_block : ∀ (b : Fin 16) (q : Fin 8), ∃ t : Fin grid0.N,
    (grid0.coords t 0).val = b.val ∧ (grid0.coords t 1).val = q.val := by decide +kernel

variable (m : (ℓ : Loc nD τ sig) → Buf (Elt F) ℓ) (ρ : Dev nD → PrngReg)

/-- The input window's block at point `t`, as the region finds the array, at its literal type. -/
abbrev inBlock (hO : Ok m) (c : Dev nD) (t : Fin (cfgM m hO).N) : Vec F S1x640x1024 .f32 := iblk m hO c 0 t

/-- WHAT POINT `t` WRITES BACK is block `t` of the masked merged-layout array: at the element `(0, r, w)` of the block of
    point `(b, q)` the body stored zero or the input's element `(b, 640·q + r, w)` according to `w ≥ len b`, and that
    element of the block sits at `(b, 640·q + r, w)` of the array. -/
theorem flushed_eq (hO : Ok m) (c : Dev nD) (t : Fin (cfgM m hO).N) :
    (dats m hO 0 c).flushed 1 t
      = (((cfgM m hO).win 1).blk t).view.read (Elt F) (Cert.Mask.rows (tbl m 0) (zero (F := F)) (V m c main_v3)) := by
  show ((cfgM m hO).win 1).cut (grid0.coords t) ((dats m hO 0 c).after 1 t) = _
  rw [after0_1]
  unfold outsAt0
  refine funext fun (y : S1x640x1024.Idx) => ?_
  have hb := block_of_point (grid0.coords t)
  have h0 : cc0_transform_1 (grid0.coords t) 0 = (grid0.coords t 0).val := congrFun hb 0
  have h1 : cc0_transform_1 (grid0.coords t) 1 = (grid0.coords t 1).val := congrFun hb 1
  have h2 : cc0_transform_1 (grid0.coords t) 2 = 0 := congrFun hb 2
  have y0 : (y 0).val < 1 := (y 0).isLt
  have y1 : (y 1).val < 640 := (y 1).isLt
  have y2 : (y 2).val < 1024 := (y 2).isLt
  have q8 : (grid0.coords t 1).val < 8 := (grid0.coords t 1).isLt
  have b16 : (grid0.coords t 0).val < 16 := (grid0.coords t 0).isLt
  -- the block's index, by coordinates
  have hy : (((cfgM m hO).win 1).xinj (grid0.coords t) y : S1x640x1024.Idx)
      = ix3 (⟨(y 0).val, y0⟩ : Fin 1) (⟨(y 1).val, y1⟩ : Fin 640) (⟨(y 2).val, y2⟩ : Fin 1024) :=
    funext fun a => match a with | ⟨0, _⟩ => rfl | ⟨1, _⟩ => rfl | ⟨2, _⟩ => rfl
  -- where the output block's element sits in the array
  have hout : (((cfgM m hO).win 1).blk t).view.emb y
      = (ix3 (⟨(grid0.coords t 0).val, b16⟩ : Fin 16) (⟨(grid0.coords t 1).val * 640 + (y 1).val, by omega⟩ : Fin 5120)
          (⟨(y 2).val, y2⟩ : Fin 1024) : S16x5120x1024.Idx) := by
    funext a; apply Fin.ext
    match a with
    | ⟨0, _⟩ => show cc0_transform_1 (grid0.coords t) 0 * 1 + 1 * (y 0).val = (grid0.coords t 0).val; omega
    | ⟨1, _⟩ => show cc0_transform_1 (grid0.coords t) 1 * 640 + 1 * (y 1).val = (grid0.coords t 1).val * 640 + (y 1).val; omega
    | ⟨2, _⟩ => show cc0_transform_1 (grid0.coords t) 2 * 1024 + 1 * (y 2).val = (y 2).val; omega
  -- and where the input block's element read there sits: the two windows move together
  have hin : (((cfgM m hO).win 0).blk t).view.emb (ix3 (0 : Fin 1) (⟨(y 1).val, y1⟩ : Fin 640) (⟨(y 2).val, y2⟩ : Fin 1024))
      = (ix3 (⟨(grid0.coords t 0).val, b16⟩ : Fin 16) (⟨(grid0.coords t 1).val * 640 + (y 1).val, by omega⟩ : Fin 5120)
          (⟨(y 2).val, y2⟩ : Fin 1024) : S16x5120x1024.Idx) := by
    funext a; apply Fin.ext
    match a with
    | ⟨0, _⟩ => show cc0_transform_1 (grid0.coords t) 0 * 1 + 1 * 0 = (grid0.coords t 0).val; omega
    | ⟨1, _⟩ => show cc0_transform_1 (grid0.coords t) 1 * 640 + 1 * (y 1).val = (grid0.coords t 1).val * 640 + (y 1).val; omega
    | ⟨2, _⟩ => show cc0_transform_1 (grid0.coords t) 2 * 1024 + 1 * (y 2).val = (y 2).val; omega
  refine (congrFun (stored c (grid0.coords t) (ms0_0 m hO t) (hs0_0 m hO t) (ms0_1 m hO t) (hs0_1 m hO t)
      (inBlock m hO c t) (tbl m 0)) (((cfgM m hO).win 1).xinj (grid0.coords t) y)).trans
    ((congrArg (k0_pay1 (F := F) (tbl m 0 (ix1 (grid0.coords t 0))) (inBlock m hO c t)) hy).trans
      ((stored_apply _ _ _ _ _).trans ?_))
  refine Eq.trans ?_ (congrArg (Cert.Mask.rows (tbl m 0) (zero (F := F)) (V m c main_v3)) hout).symm
  exact congrArg (fun v => Scalar.select (IntOp.cmpi .sge (BitVec.ofNat 32 (y 2).val) (tbl m 0 (ix1 (grid0.coords t 0))))
    (zero (F := F)) v) (congrArg (V m c main_v3) hin)

/-- An index of the array is in point `t`'s block iff each coordinate is in the block's range on its axis. -/
theorem mem_block (hO : Ok m) (t : Fin (cfgM m hO).N) (j : S16x5120x1024.Idx) :
    j ∈ (((cfgM m hO).win 1).blk t).view.set
      ↔ ∀ a : Fin 3, cc0_transform_1 (grid0.coords t) a * S1x640x1024.size a ≤ (j a).val
          ∧ (j a).val < cc0_transform_1 (grid0.coords t) a * S1x640x1024.size a + S1x640x1024.size a := by
  refine Iff.trans (Iff.of_eq (congrArg (fun S => j ∈ S)
    (View.set_slice_whole main_v4 (((cfgM m hO).win 1).rect t)))) ?_
  exact Rect.mem_set_unit

/-- The 128 blocks tile the array: row `r` of sample `b` is in the block of the point `(b, r / 640)`. -/
theorem covered (hO : Ok m) (j : S16x5120x1024.Idx) :
    ∃ t : Fin (cfgM m hO).N, ((cfgM m hO).win 1).flush t = true ∧ j ∈ (((cfgM m hO).win 1).blk t).view.set := by
  have j0 : (j 0).val < 16 := (j 0).isLt
  have j1 : (j 1).val < 5120 := (j 1).isLt
  have j2 : (j 2).val < 1024 := (j 2).isLt
  obtain ⟨t, e0, e1⟩ := point_of_block ⟨(j 0).val, j0⟩ ⟨(j 1).val / 640, by omega⟩
  have e0' : (grid0.coords t 0).val = (j 0).val := e0
  have e1' : (grid0.coords t 1).val = (j 1).val / 640 := e1
  have hb := block_of_point (grid0.coords t)
  have h0 : cc0_transform_1 (grid0.coords t) 0 = (grid0.coords t 0).val := congrFun hb 0
  have h1 : cc0_transform_1 (grid0.coords t) 1 = (grid0.coords t 1).val := congrFun hb 1
  have h2 : cc0_transform_1 (grid0.coords t) 2 = 0 := congrFun hb 2
  refine ⟨t, flush0_1 (adm m hO) t, ?_⟩
  refine (mem_block m hO t j).mpr fun a => ?_
  match a with
  | ⟨0, _⟩ => show cc0_transform_1 (grid0.coords t) 0 * 1 ≤ (j 0).val ∧ (j 0).val < cc0_transform_1 (grid0.coords t) 0 * 1 + 1; omega
  | ⟨1, _⟩ => show cc0_transform_1 (grid0.coords t) 1 * 640 ≤ (j 1).val ∧ (j 1).val < cc0_transform_1 (grid0.coords t) 1 * 640 + 640; omega
  | ⟨2, _⟩ => show cc0_transform_1 (grid0.coords t) 2 * 1024 ≤ (j 2).val ∧ (j 2).val < cc0_transform_1 (grid0.coords t) 2 * 1024 + 1024; omega

/-- THE ARRAY after the region: the masked input in the merged layout. -/
theorem final (hO : Ok m) (c : Dev nD) :
    (dats m hO 0 c).arrAt 1 (cfgM m hO).N = Cert.Mask.rows (tbl m 0) (zero (F := F)) (V m c main_v3) :=
  (dats m hO 0 c).arrAt_eq_of_cover 1 _ (fun t _ => flushed_eq m hO c t) (covered m hO)

/-! ## The program around the region -/

/-- The region finds the input in the merged layout: the host's reshape before the call. -/
theorem rows_in (c : Dev nD) :
    (V m c main_v3 : S16x5120x1024.Idx → Elt F .f32)
      = shapeCast S16x5120x1024 (m ((c : Thread nD τ).loc main_arg0)) Gen.shapeCasts_S16x64x80x1024_S16x5120x1024 := by
  show StableHlo.after hostOps0 (fun b => m (c, b)) (Proc.devRef .tc main_v3) = _
  after_results
  rfl

/-- The prefetched table holds the lengths: the host's product and conversion before the call. -/
theorem table_eq :
    (tbl m 0 : S16.Idx → BitVec 32) = Cert.Mask.lengths (F := F) (m (((0 : Dev nD) : Thread nD τ).loc main_arg1)) := by
  show StableHlo.after hostOps0 (fun b => m ((0 : Dev nD), b)) (Proc.devRef .tc main_v2) = _
  after_results
  rfl

/-- The program's result is the reshape, after the call, of the array the region left. -/
theorem result_rows (hO : Ok m) (c : Dev nD) :
    Pipeline.afterTail pcfgs (fun _ => adm m hO) (dats m hO) 0 (V0 m) [hostOps1] c main_v5
      = shapeCast S16x64x80x1024 ((dats m hO 0 c).arrAt 1 (cfgM m hO).N) Gen.shapeCasts_S16x5120x1024_S16x64x80x1024 := by
  unfold Pipeline.afterTail
  show StableHlo.after hostOps1 _ (Proc.devRef .tc main_v5) = _
  after_results
  exact congrArg (fun W => shapeCast S16x64x80x1024 W Gen.shapeCasts_S16x5120x1024_S16x64x80x1024)
    (Pipeline.withArrays_arr spec0 winFacts0.arr_inj c (V0 m c) _ 1)

/-- THE RESULT: the input masked by the lengths, in the four-axis layout. -/
theorem result (hO : Ok m) (c : Dev nD) :
    Pipeline.afterTail pcfgs (fun _ => adm m hO) (dats m hO) 0 (V0 m) [hostOps1] c main_v5
      = Cert.Mask.full (Cert.Mask.lengths (F := F) (m ((c : Thread nD τ).loc main_arg1))) (zero (F := F))
          (m ((c : Thread nD τ).loc main_arg0)) := by
  obtain rfl : c = 0 := Subsingleton.elim _ _
  rw [result_rows, final, rows_in, table_eq]
  exact Cert.Mask.full_of_rows _ _ _ _ _

/-- The frame run re-posted: the result at the masked input, the arguments unchanged. -/
theorem run (hO : Ok m) :
    θ_run defs (onTc (τ := τ) (main (F := F))) ⟨m, fun _ => 0, ρ⟩ fun r => ∀ c : Dev nD,
      r.2.mem ((c : Thread nD τ).loc main_v5)
          = Cert.Mask.full (Cert.Mask.lengths (F := F) (m ((c : Thread nD τ).loc main_arg1))) (zero (F := F))
              (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (by decide : main_v5 ∈ Pipeline.restRefs sig spec0)).trans (result m hO c),
        ((h c).2 main_arg0 (by decide : main_arg0 ∈ Pipeline.restRefs sig spec0)).trans (W_main_arg0 m hO (dats m hO) c),
        ((h c).2 main_arg1 (by decide : main_arg1 ∈ Pipeline.restRefs sig spec0)).trans (W_main_arg1 m hO (dats m hO) c)⟩)
    (run_main m ρ hO)

end Cert.KernelIdeal.MaskValue

end
-- ==== Proof.RefMask.lean ====
/-
  The reference, read at an index.

  The reference broadcasts the positions `0 … 1023` along the last axis and the sixteen lengths along the first,
  compares them (signed, position ≥ length) and selects zero where the comparison holds, the input elsewhere.  At an
  index `(b, c, h, w)` every broadcast reads its operand at the coordinates it keeps, so the compared pair is
  `(w, len b)` and the result is `Mask.full` of the same lengths, the same zero and the input.
-/
import proofs.«110465_j13907104104939_1_alg».proof.Proof.Gen.ReferenceIdeal.Read
import proofs.«110465_j13907104104939_1_alg».proof.Proof.Mask

noncomputable section

namespace Cert.ReferenceIdeal.RefMask

open Cert.ReferenceIdeal Cert.ReferenceIdeal.Read Idealize.ShloMosaic Idealize.ShloMosaic.ValueIdx

variable {F : FTy → Type} [FloatOps F]

/-- The reference's result is the masked input in the four-axis layout. -/
theorem result_eq (x : (⟨S16x64x80x1024, .f32⟩ : BufTy).Contents (Elt F)) (p : (⟨S16, .f32⟩ : BufTy).Contents (Elt F)) :
    val_main_v9 (F := F) x p
      = Cert.Mask.full (Cert.Mask.lengths (F := F) p) (FloatOps.ofBits (F := F) .f32 0x00000000#32) x := by
  funext i
  -- the sample whose length is compared: the first coordinate, carried through three broadcasts
  have hb : idx_main_v5 (idx_main_v7 (idx_main_call0_v0 i)) = ix1 (i 0) :=
    funext fun a => match a with | ⟨0, _⟩ => rfl
  rw [val_main_v9_apply, val_main_call0_v0_apply, val_main_v8_apply, val_main_v6_apply, val_main_v4_apply,
    val_main_v3_apply, val_main_v7_apply, val_main_v5_apply, val_main_call0_v1_apply, val_main_cst_0_apply, hb]
  rfl

end Cert.ReferenceIdeal.RefMask

end
-- ==== Proof.lean ====
/-
  Length masking of a batch of feature maps: kernel against reference.

  Input `x : f32[16, 64, 80, 1024]` and `percents : f32[16]`.  Both programs first compute, on the host and by the same
  three operations, the lengths `len b = fptosi (1024 · percents b)` (one signed 32-bit word per sample), and both then
  keep `x[b, c, h, w]` where `w < len b` (signed) and put zero where `w ≥ len b`.

  The reference does it in the four-axis layout with broadcasts of the positions and of the lengths.  The kernel
  reshapes `x` to `[16, 5120, 1024]`, walks a 16 × 8 grid of `[1, 640, 1024]` blocks, reads `len b` from a prefetched
  table at point `(b, q)`, masks the block by a lane iota against the length, and reshapes the result back.  Nothing is
  added, multiplied or rounded on the way, so no law of the extended reals is needed and the precondition is not
  opened: the two results are one function of the arguments — `Mask.full (Mask.lengths percents) 0 x` — at any
  reading of the floats, in particular the ideal one.

    * `Mask`        the function, at both layouts, and that merging the middle axes commutes with it;
    * `KernelMask`  the kernel's blocks are the blocks of that function, they tile the array, and the reshapes
                    before and after the call carry it to the four-axis layout;
    * `RefMask`     the reference's broadcasts, compare and select read at an index are that function.

  The kernel's index maps do not read the prefetched table, so the side condition on the table's contents under
  which the frames are stated is `True`.  The idealization rewrote nothing: `preserves` is `True`.
-/
import proofs.«110465_j13907104104939_1_alg».proof.Defs
import proofs.«110465_j13907104104939_1_alg».proof.Proof.Gen.Kernel
import proofs.«110465_j13907104104939_1_alg».proof.Proof.Gen.Kernel.Skeleton
import proofs.«110465_j13907104104939_1_alg».proof.Proof.Gen.Kernel.Launch
import proofs.«110465_j13907104104939_1_alg».proof.Proof.Gen.Kernel.Points
import proofs.«110465_j13907104104939_1_alg».proof.Proof.Gen.Kernel.Frame
import proofs.«110465_j13907104104939_1_alg».proof.Proof.Gen.KernelIdeal
import proofs.«110465_j13907104104939_1_alg».proof.Proof.Gen.KernelIdeal.Skeleton
import proofs.«110465_j13907104104939_1_alg».proof.Proof.Gen.KernelIdeal.Launch
import proofs.«110465_j13907104104939_1_alg».proof.Proof.Gen.KernelIdeal.Points
import proofs.«110465_j13907104104939_1_alg».proof.Proof.Gen.KernelIdeal.Frame
import proofs.«110465_j13907104104939_1_alg».proof.Proof.Gen.ReferenceIdeal
import proofs.«110465_j13907104104939_1_alg».proof.Proof.Gen.ReferenceIdeal.Run
import proofs.«110465_j13907104104939_1_alg».proof.Proof.Gen.ReferenceIdeal.Read
import proofs.«110465_j13907104104939_1_alg».proof.Proof.Gen.Pre_finite_inputs
import proofs.«110465_j13907104104939_1_alg».proof.Proof.Mask
import proofs.«110465_j13907104104939_1_alg».proof.Proof.KernelMask
import proofs.«110465_j13907104104939_1_alg».proof.Proof.RefMask
import Idealize.ShloMosaic.Adequacy
import Idealize.ShloMosaic.Init

noncomputable section

namespace Cert.Proof

open Idealize.ShloMosaic Idealize.ShloMosaic.TcCoe Idealize.SL.Sem

/-- The word-level kernel runs and keeps its arguments (no index map reads the table: the side condition is `True`). -/
theorem frame_kernel : Cert.frame_Kernel := fun m ρ _ => Cert.Kernel.Gen.frame m ρ trivial

/-- So does the kernel read at the ideal instance. -/
theorem frame_kernelIdeal : Cert.frame_KernelIdeal := fun m ρ _ => Cert.KernelIdeal.Gen.frame m ρ trivial

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `percents`, the kernel's result (its blocks assembled and reshaped) and the
    reference's (its broadcasts, compare and select) are both the input masked by the lengths. -/
theorem algebraic : Cert.algebraic_KernelIdeal_ReferenceIdeal := by
  intro m ρ m' ρ' _ hagree
  refine ⟨_, Cert.KernelIdeal.MaskValue.run (F := Ideal) m ρ trivial, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _).trans ((Cert.ReferenceIdeal.RefMask.result_eq _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
